-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_v60) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x56 : Shape := ⟨2, ![50000, 56]⟩
abbrev S3000000x56 : Shape := ⟨2, ![3000000, 56]⟩
abbrev S50000 : Shape := ⟨1, ![50000]⟩
abbrev S100 : Shape := ⟨1, ![100]⟩
abbrev S3000000x3 : Shape := ⟨2, ![3000000, 3]⟩
abbrev S3000000 : Shape := ⟨1, ![3000000]⟩
abbrev S56x64 : Shape := ⟨2, ![56, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S50000x56 : S_.BroadcastsInDim S50000x56 (![] : Fin 0 → Fin S50000x56.rank)
  reducesTo_S50000x56_S_d0_1 : S50000x56.ReducesTo [0, 1] S_
  h_S_ : 0 < S_.numel
  bcast_S_S3000000x56 : S_.BroadcastsInDim S3000000x56 (![] : Fin 0 → Fin S3000000x56.rank)
  reducesTo_S3000000x56_S_d0_1 : S3000000x56.ReducesTo [0, 1] S_
  bcast_S_S56x64 : S_.BroadcastsInDim S56x64 (![] : Fin 0 → Fin S56x64.rank)
  reducesTo_S56x64_S_d0_1 : S56x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg11 : FVec F S1 .f32) (main_v33 : IVec S_ 1) : IVec S_ 1 :=
  let main_v34 : FVec F S1 .f32 := Host.absf main_arg11
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg8 : FVec F S64x64 .f32) (main_arg9 : FVec F S64 .f32) (main_arg10 : FVec F S64x1 .f32) (main_arg11 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg8
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg9
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x1 .f32 := Host.absf main_arg10
  let main_cst_10 : FVec F S_ .f32 := constant S_ .f32 0x7F800000#32
  let main_v30 : FVec F S64x1 .f32 := broadcastInDim S64x1 ![] bcast_S_S64x1 main_cst_10
  let main_v31 : IVec S64x1 1 := cmpf .olt main_v29 main_v30
  let main_c_11 : IVec S_ 1 := constantI S_ 1 1#1
  let main_v32 : IVec S_ 1 := (fun x v => Host.reduce IntOp.andi x v reducesTo_S64x1_S_d0_1 h_S_) main_v31 main_c_11
  let main_v33 : IVec S_ 1 := andi main_v28 main_v32
  fn_part2 (F := F) main_arg11 main_v33

def fn {F : FTy → Type} [FloatOps F] (main_arg0 : FVec F S50000x56 .f32) (main_arg1 : FVec F S3000000x56 .f32) (main_arg2 : IVec S50000 32) (main_arg3 : IVec S100 32) (main_arg4 : IVec S3000000x3 32) (main_arg5 : IVec S3000000 32) (main_arg6 : FVec F S56x64 .f32) (main_arg7 : FVec F S64 .f32) (main_arg8 : FVec F S64x64 .f32) (main_arg9 : FVec F S64 .f32) (main_arg10 : FVec F S64x1 .f32) (main_arg11 : FVec F S1 .f32) : IVec S_ 1 :=
  let main_v0 : FVec F S50000x56 .f32 := Host.absf main_arg0
  let main_cst : FVec F S_ .f32 := constant S_ .f32 0x7F800000#32
  let main_v1 : FVec F S50000x56 .f32 := broadcastInDim S50000x56 ![] bcast_S_S50000x56 main_cst
  let main_v2 : IVec S50000x56 1 := cmpf .olt main_v0 main_v1
  let main_c : IVec S_ 1 := constantI S_ 1 1#1
  let main_v3 : IVec S_ 1 := (fun x v => Host.reduce IntOp.andi x v reducesTo_S50000x56_S_d0_1 h_S_) main_v2 main_c
  let main_v4 : FVec F S3000000x56 .f32 := Host.absf main_arg1
  let main_cst_0 : FVec F S_ .f32 := constant S_ .f32 0x7F800000#32
  let main_v5 : FVec F S3000000x56 .f32 := broadcastInDim S3000000x56 ![] bcast_S_S3000000x56 main_cst_0
  let main_v6 : IVec S3000000x56 1 := cmpf .olt main_v4 main_v5
  let main_c_1 : IVec S_ 1 := constantI S_ 1 1#1
  let main_v7 : IVec S_ 1 := (fun x v => Host.reduce IntOp.andi x v reducesTo_S3000000x56_S_d0_1 h_S_) main_v6 main_c_1
  let main_v8 : IVec S_ 1 := andi main_v3 main_v7
  let main_v9 : FVec F S56x64 .f32 := Host.absf main_arg6
  let main_cst_2 : FVec F S_ .f32 := constant S_ .f32 0x7F800000#32
  let main_v10 : FVec F S56x64 .f32 := broadcastInDim S56x64 ![] bcast_S_S56x64 main_cst_2
  let main_v11 : IVec S56x64 1 := cmpf .olt main_v9 main_v10
  let main_c_3 : IVec S_ 1 := constantI S_ 1 1#1
  let main_v12 : IVec S_ 1 := (fun x v => Host.reduce IntOp.andi x v reducesTo_S56x64_S_d0_1 h_S_) main_v11 main_c_3
  let main_v13 : IVec S_ 1 := andi main_v8 main_v12
  let main_v14 : FVec F S64 .f32 := Host.absf main_arg7
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg8 main_arg9 main_arg10 main_arg11 main_v13 main_v16
-- ==== Kernel.lean ====
abbrev S50000x56 : Shape := ⟨2, ![50000, 56]⟩
abbrev S3000000x56 : Shape := ⟨2, ![3000000, 56]⟩
abbrev S50000 : Shape := ⟨1, ![50000]⟩
abbrev S100 : Shape := ⟨1, ![100]⟩
abbrev S3000000x3 : Shape := ⟨2, ![3000000, 3]⟩
abbrev S3000000 : Shape := ⟨1, ![3000000]⟩
abbrev S56x64 : Shape := ⟨2, ![56, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S50000x64 : Shape := ⟨2, ![50000, 64]⟩
abbrev S1x64 : Shape := ⟨2, ![1, 64]⟩
abbrev S_ : Shape := ⟨0, ![]⟩
abbrev S50000x1 : Shape := ⟨2, ![50000, 1]⟩
abbrev S1x1 : Shape := ⟨2, ![1, 1]⟩
abbrev S3000000x1 : Shape := ⟨2, ![3000000, 1]⟩
abbrev S3014656x56 : Shape := ⟨2, ![3014656, 56]⟩
abbrev S3014656x1 : Shape := ⟨2, ![3014656, 1]⟩
abbrev S16384x56 : Shape := ⟨2, ![16384, 56]⟩
abbrev S16384x1 : Shape := ⟨2, ![16384, 1]⟩
abbrev S16384 : Shape := ⟨1, ![16384]⟩
abbrev S150000 : Shape := ⟨1, ![150000]⟩

abbrev nBuf : Space → Nat
  | .hbm => 130
  | .vmem => 6
  | .smem => 0
  | _ => 0

abbrev hbmTy0_0 (i : Nat) : BufTy := match i % 128 with
  | 0 => ⟨S50000x56, .f32⟩
  | 1 => ⟨S3000000x56, .f32⟩
  | 2 => ⟨S50000, .i32⟩
  | 3 => ⟨S100, .i32⟩
  | 4 => ⟨S3000000x3, .i32⟩
  | 5 => ⟨S3000000, .i32⟩
  | 6 => ⟨S56x64, .f32⟩
  | 7 => ⟨S64, .f32⟩
  | 8 => ⟨S64x64, .f32⟩
  | 9 => ⟨S64, .f32⟩
  | 10 => ⟨S64x1, .f32⟩
  | 11 => ⟨S1, .f32⟩
  | 12 => ⟨S50000x64, .f32⟩
  | 13 => ⟨S1x64, .f32⟩
  | 14 => ⟨S50000x64, .f32⟩
  | 15 => ⟨S50000x64, .f32⟩
  | 16 => ⟨S50000x64, .f32⟩
  | 17 => ⟨S50000x64, .f32⟩
  | 18 => ⟨S_, .f32⟩
  | 19 => ⟨S50000x64, .f32⟩
  | 20 => ⟨S50000x64, .f32⟩
  | 21 => ⟨S_, .f32⟩
  | 22 => ⟨S50000x64, .f32⟩
  | 23 => ⟨S50000x64, .f32⟩
  | 24 => ⟨S50000x64, .f32⟩
  | 25 => ⟨S50000x64, .f32⟩
  | 26 => ⟨S1x64, .f32⟩
  | 27 => ⟨S50000x64, .f32⟩
  | 28 => ⟨S50000x64, .f32⟩
  | 29 => ⟨S50000x64, .f32⟩
  | 30 => ⟨S50000x64, .f32⟩
  | 31 => ⟨S_, .f32⟩
  | 32 => ⟨S50000x64, .f32⟩
  | 33 => ⟨S50000x64, .f32⟩
  | 34 => ⟨S_, .f32⟩
  | 35 => ⟨S50000x64, .f32⟩
  | 36 => ⟨S50000x64, .f32⟩
  | 37 => ⟨S50000x64, .f32⟩
  | 38 => ⟨S50000x1, .f32⟩
  | 39 => ⟨S1x1, .f32⟩
  | 40 => ⟨S50000x1, .f32⟩
  | 41 => ⟨S50000x1, .f32⟩
  | 42 => ⟨S50000, .f32⟩
  | 43 => ⟨S_, .f32⟩
  | 44 => ⟨S100, .f32⟩
  | 45 => ⟨S50000x1, .i32⟩
  | 46 => ⟨S100, .f32⟩
  | 47 => ⟨S50000x64, .f32⟩
  | 48 => ⟨S1x64, .f32⟩
  | 49 => ⟨S50000x64, .f32⟩
  | 50 => ⟨S50000x64, .f32⟩
  | 51 => ⟨S50000x64, .f32⟩
  | 52 => ⟨S50000x64, .f32⟩
  | 53 => ⟨S_, .f32⟩
  | 54 => ⟨S50000x64, .f32⟩
  | 55 => ⟨S50000x64, .f32⟩
  | 56 => ⟨S_, .f32⟩
  | 57 => ⟨S50000x64, .f32⟩
  | 58 => ⟨S50000x64, .f32⟩
  | 59 => ⟨S_, .f32⟩
  | 60 => ⟨S50000x64, .f32⟩
  | 61 => ⟨S50000x64, .f32⟩
  | 62 => ⟨S50000x64, .f32⟩
  | 63 => ⟨S50000x64, .f32⟩
  | 64 => ⟨S50000x64, .f32⟩
  | 65 => ⟨S1x64, .f32⟩
  | 66 => ⟨S50000x64, .f32⟩
  | 67 => ⟨S50000x64, .f32⟩
  | 68 => ⟨S50000x64, .f32⟩
  | 69 => ⟨S50000x64, .f32⟩
  | 70 => ⟨S_, .f32⟩
  | 71 => ⟨S50000x64, .f32⟩
  | 72 => ⟨S50000x64, .f32⟩
  | 73 => ⟨S_, .f32⟩
  | 74 => ⟨S50000x64, .f32⟩
  | 75 => ⟨S50000x64, .f32⟩
  | 76 => ⟨S_, .f32⟩
  | 77 => ⟨S50000x64, .f32⟩
  | 78 => ⟨S50000x64, .f32⟩
  | 79 => ⟨S50000x64, .f32⟩
  | 80 => ⟨S50000x64, .f32⟩
  | 81 => ⟨S50000x1, .f32⟩
  | 82 => ⟨S1x1, .f32⟩
  | 83 => ⟨S50000x1, .f32⟩
  | 84 => ⟨S50000x1, .f32⟩
  | 85 => ⟨S_, .f32⟩
  | 86 => ⟨S_, .f32⟩
  | 87 => ⟨S_, .f32⟩
  | 88 => ⟨S50000x1, .f32⟩
  | 89 => ⟨S50000x64, .f32⟩
  | 90 => ⟨S50000x64, .f32⟩
  | 91 => ⟨S50000x64, .f32⟩
  | 92 => ⟨S50000x64, .f32⟩
  | 93 => ⟨S50000x64, .f32⟩
  | 94 => ⟨S50000x64, .f32⟩
  | 95 => ⟨S50000x64, .f32⟩
  | 96 => ⟨S50000x64, .f32⟩
  | 97 => ⟨S50000x64, .f32⟩
  | 98 => ⟨S50000x64, .f32⟩
  | 99 => ⟨S50000x56, .f32⟩
  | 100 => ⟨S3000000x1, .i32⟩
  | 101 => ⟨S3000000, .i32⟩
  | 102 => ⟨S3000000x1, .i32⟩
  | 103 => ⟨S3000000, .i32⟩
  | 104 => ⟨S_, .i32⟩
  | 105 => ⟨S3000000, .i32⟩
  | 106 => ⟨S3000000, .i32⟩
  | 107 => ⟨S3000000, .i32⟩
  | 108 => ⟨S_, .i32⟩
  | 109 => ⟨S3000000, .i32⟩
  | 110 => ⟨S3000000, .i1⟩
  | 111 => ⟨S_, .i32⟩
  | 112 => ⟨S3000000, .i32⟩
  | 113 => ⟨S3000000, .i32⟩
  | 114 => ⟨S3000000, .i32⟩
  | 115 => ⟨S3000000x1, .i32⟩
  | 116 => ⟨S3000000x56, .f32⟩
  | 117 => ⟨S_, .i32⟩
  | 118 => ⟨S_, .f32⟩
  | 119 => ⟨S3014656x56, .f32⟩
  | 120 => ⟨S_, .i32⟩
  | 121 => ⟨S_, .f32⟩
  | 122 => ⟨S3014656x56, .f32⟩
  | 123 => ⟨S3014656x1, .f32⟩
  | 124 => ⟨S3000000x1, .f32⟩
  | 125 => ⟨S3000000, .f32⟩
  | 126 => ⟨S_, .f32⟩
  | 127 => ⟨S150000, .f32⟩
  | _ => ⟨S50000x56, .f32⟩

abbrev hbmTy0_1 (i : Nat) : BufTy := match i % 128 with
  | 0 => ⟨S3000000x1, .i32⟩
  | 1 => ⟨S150000, .f32⟩
  | _ => ⟨S50000x56, .f32⟩

abbrev hbmTy (i : Nat) : BufTy := match i / 128 with
  | 0 => hbmTy0_0 i
  | 1 => hbmTy0_1 i
  | _ => ⟨S50000x56, .f32⟩

abbrev bufTy : (tb : Table) → Fin (tcTables nBuf tb) → BufTy
  | .hbm, ⟨i, _⟩ => hbmTy i
  | .local _ .vmem, ⟨0, _⟩ => ⟨S16384x56, .f32⟩
  | .local _ .vmem, ⟨1, _⟩ => ⟨S16384x56, .f32⟩
  | .local _ .vmem, ⟨2, _⟩ => ⟨S16384x56, .f32⟩
  | .local _ .vmem, ⟨3, _⟩ => ⟨S16384x56, .f32⟩
  | .local _ .vmem, ⟨4, _⟩ => ⟨S16384x1, .f32⟩
  | .local _ .vmem, ⟨5, _⟩ => ⟨S16384x1, .f32⟩
  | _, _ => ⟨S50000x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_call1_v0 : Ref sig .tc := ⟨.hbm, 29, rfl⟩
abbrev main_call1_v1 : Ref sig .tc := ⟨.hbm, 30, rfl⟩
abbrev main_call1_cst : Ref sig .tc := ⟨.hbm, 31, rfl⟩
abbrev main_call1_v2 : Ref sig .tc := ⟨.hbm, 32, rfl⟩
abbrev main_call1_v3 : Ref sig .tc := ⟨.hbm, 33, rfl⟩
abbrev main_call1_cst_0 : Ref sig .tc := ⟨.hbm, 34, rfl⟩
abbrev main_call1_v4 : Ref sig .tc := ⟨.hbm, 35, rfl⟩
abbrev main_call1_v5 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_cst : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_call2_v0 : Ref sig .tc := ⟨.hbm, 51, rfl⟩
abbrev main_call2_v1 : Ref sig .tc := ⟨.hbm, 52, rfl⟩
abbrev main_call2_cst : Ref sig .tc := ⟨.hbm, 53, rfl⟩
abbrev main_call2_v2 : Ref sig .tc := ⟨.hbm, 54, rfl⟩
abbrev main_call2_v3 : Ref sig .tc := ⟨.hbm, 55, rfl⟩
abbrev main_call2_cst_0 : Ref sig .tc := ⟨.hbm, 56, rfl⟩
abbrev main_call2_v4 : Ref sig .tc := ⟨.hbm, 57, rfl⟩
abbrev main_v22_2 : Ref sig .tc := ⟨.hbm, 58, rfl⟩
abbrev main_call2_cst_1 : Ref sig .tc := ⟨.hbm, 59, rfl⟩
abbrev main_call2_v6 : Ref sig .tc := ⟨.hbm, 60, rfl⟩
abbrev main_call2_v7 : Ref sig .tc := ⟨.hbm, 61, rfl⟩
abbrev main_v22_1 : Ref sig .tc := ⟨.hbm, 62, rfl⟩
abbrev main_v22_0 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_call3_v0 : Ref sig .tc := ⟨.hbm, 68, rfl⟩
abbrev main_call3_v1 : Ref sig .tc := ⟨.hbm, 69, rfl⟩
abbrev main_call3_cst : Ref sig .tc := ⟨.hbm, 70, rfl⟩
abbrev main_call3_v2 : Ref sig .tc := ⟨.hbm, 71, rfl⟩
abbrev main_call3_v3 : Ref sig .tc := ⟨.hbm, 72, rfl⟩
abbrev main_call3_cst_0 : Ref sig .tc := ⟨.hbm, 73, rfl⟩
abbrev main_call3_v4 : Ref sig .tc := ⟨.hbm, 74, rfl⟩
abbrev main_v27_2 : Ref sig .tc := ⟨.hbm, 75, rfl⟩
abbrev main_call3_cst_1 : Ref sig .tc := ⟨.hbm, 76, rfl⟩
abbrev main_call3_v6 : Ref sig .tc := ⟨.hbm, 77, rfl⟩
abbrev main_call3_v7 : Ref sig .tc := ⟨.hbm, 78, rfl⟩
abbrev main_v27_1 : Ref sig .tc := ⟨.hbm, 79, rfl⟩
abbrev main_v27_0 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_cst_0 : Ref sig .tc := ⟨.hbm, 85, rfl⟩
abbrev main_v32 : Ref sig .tc := ⟨.hbm, 86, rfl⟩
abbrev main_cst_1 : Ref sig .tc := ⟨.hbm, 87, rfl⟩
abbrev main_v33 : Ref sig .tc := ⟨.hbm, 88, rfl⟩
abbrev main_v34 : Ref sig .tc := ⟨.hbm, 89, rfl⟩
abbrev main_call4_v0 : Ref sig .tc := ⟨.hbm, 90, rfl⟩
abbrev main_call4_v1 : Ref sig .tc := ⟨.hbm, 91, rfl⟩
abbrev main_call4_v2 : Ref sig .tc := ⟨.hbm, 92, rfl⟩
abbrev main_v35 : Ref sig .tc := ⟨.hbm, 93, rfl⟩
abbrev main_v36 : Ref sig .tc := ⟨.hbm, 94, rfl⟩
abbrev main_call5_v0 : Ref sig .tc := ⟨.hbm, 95, rfl⟩
abbrev main_call5_v1 : Ref sig .tc := ⟨.hbm, 96, rfl⟩
abbrev main_call5_v2 : Ref sig .tc := ⟨.hbm, 97, rfl⟩
abbrev main_v37 : Ref sig .tc := ⟨.hbm, 98, rfl⟩
abbrev main_v38 : Ref sig .tc := ⟨.hbm, 99, rfl⟩
abbrev main_v39 : Ref sig .tc := ⟨.hbm, 100, rfl⟩
abbrev main_v40 : Ref sig .tc := ⟨.hbm, 101, rfl⟩
abbrev main_v41 : Ref sig .tc := ⟨.hbm, 102, rfl⟩
abbrev main_v42 : Ref sig .tc := ⟨.hbm, 103, rfl⟩
abbrev main_c : Ref sig .tc := ⟨.hbm, 104, rfl⟩
abbrev main_v43 : Ref sig .tc := ⟨.hbm, 105, rfl⟩
abbrev main_v44 : Ref sig .tc := ⟨.hbm, 106, rfl⟩
abbrev main_v45 : Ref sig .tc := ⟨.hbm, 107, rfl⟩
abbrev main_c_2 : Ref sig .tc := ⟨.hbm, 108, rfl⟩
abbrev main_v46 : Ref sig .tc := ⟨.hbm, 109, rfl⟩
abbrev main_v47 : Ref sig .tc := ⟨.hbm, 110, rfl⟩
abbrev main_c_3 : Ref sig .tc := ⟨.hbm, 111, rfl⟩
abbrev main_v48 : Ref sig .tc := ⟨.hbm, 112, rfl⟩
abbrev main_v49 : Ref sig .tc := ⟨.hbm, 113, rfl⟩
abbrev main_v50 : Ref sig .tc := ⟨.hbm, 114, rfl⟩
abbrev main_v51 : Ref sig .tc := ⟨.hbm, 115, rfl⟩
abbrev main_v52 : Ref sig .tc := ⟨.hbm, 116, rfl⟩
abbrev main_c_4 : Ref sig .tc := ⟨.hbm, 117, rfl⟩
abbrev main_call6_v0 : Ref sig .tc := ⟨.hbm, 118, rfl⟩
abbrev main_v53 : Ref sig .tc := ⟨.hbm, 119, rfl⟩
abbrev main_c_5 : Ref sig .tc := ⟨.hbm, 120, rfl⟩
abbrev main_call7_v0 : Ref sig .tc := ⟨.hbm, 121, rfl⟩
abbrev main_v54 : Ref sig .tc := ⟨.hbm, 122, rfl⟩
abbrev main_v55 : Ref sig .tc := ⟨.hbm, 123, rfl⟩
abbrev main_v56 : Ref sig .tc := ⟨.hbm, 124, rfl⟩
abbrev main_v57 : Ref sig .tc := ⟨.hbm, 125, rfl⟩
abbrev main_cst_6 : Ref sig .tc := ⟨.hbm, 126, rfl⟩
abbrev main_v58 : Ref sig .tc := ⟨.hbm, 127, rfl⟩
abbrev main_v59 : Ref sig .tc := ⟨.hbm, 128, rfl⟩
abbrev main_v60 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![184], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x56 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384x56 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16384x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S50000 : S50000x1.ShapeCasts S50000
  bcast_S_S100 : S_.BroadcastsInDim S100 (![] : Fin 0 → Fin S100.rank)
  bcast_S50000_S50000x1_0 : S50000.BroadcastsInDim S50000x1 (![0] : Fin 1 → Fin S50000x1.rank)
  reducesTo_S50000x1_S_d0_1 : S50000x1.ReducesTo [0, 1] S_
  h_S_ : 0 < S_.numel
  bcast_S_S50000x1 : S_.BroadcastsInDim S50000x1 (![] : Fin 0 → Fin S50000x1.rank)
  slices_S3000000x3_S3000000x1_0_0 : S3000000x3.Slices ![0, 0] S3000000x1
  shapeCasts_S3000000x1_S3000000 : S3000000x1.ShapeCasts S3000000
  slices_S3000000x3_S3000000x1_0_2 : S3000000x3.Slices ![0, 2] S3000000x1
  bcast_S_S3000000 : S_.BroadcastsInDim S3000000 (![] : Fin 0 → Fin S3000000.rank)
  bcast_S3000000_S3000000x1_0 : S3000000.BroadcastsInDim S3000000x1 (![0] : Fin 1 → Fin S3000000x1.rank)
  pads_S3000000x56_S3014656x56_0146560_000 : S3000000x56.Pads (![0, 0] : Fin 2 → Nat) ![14656, 0] ![0, 0] S3014656x56
  inb_S16384x56_S16384x56_0_0 : ∀ a, (![0, 0] : Fin 2 → Nat) a + S16384x56.size a ≤ S16384x56.size a
  h_S16384x56 : 0 < S16384x56.numel
  shapeCasts_S16384x56_S16384x56 : S16384x56.ShapeCasts S16384x56
  reduces_S16384x56_S16384 : S16384x56.Reduces [1] S16384
  shapeCasts_S16384_S16384x1 : S16384.ShapeCasts S16384x1
  inb_S16384x1_S16384x1_0_0 : ∀ a, (![0, 0] : Fin 2 → Nat) a + S16384x1.size a ≤ S16384x1.size a
  h_S16384x1 : 0 < S16384x1.numel
  slices_S3014656x1_S3000000x1_0_0 : S3014656x1.Slices ![0, 0] S3000000x1
  bcast_S_S150000 : S_.BroadcastsInDim S150000 (![] : Fin 0 → Fin S150000.rank)
  dot_S50000x56_S56x64_S50000x64_1_0_0_1_n_n_wf : DotDims.WF S50000x56 S56x64 S50000x64 [1] [0] [0] [1] [] []
  dot_S50000x64_S64x64_S50000x64_1_0_0_1_n_n_wf : DotDims.WF S50000x64 S64x64 S50000x64 [1] [0] [0] [1] [] []
  dot_S50000x64_S64x1_S50000x1_1_0_0_1_n_n_wf : DotDims.WF S50000x64 S64x1 S50000x1 [1] [0] [0] [1] [] []
  scatter_S100_S50000x1_S50000_n_0_0_1_wf : ScatterDims.WF S100 S50000x1 S50000 [] [0] [0] 1
  dot_S50000x1_S64x1_S50000x64_1_1_0_0_n_n_wf : DotDims.WF S50000x1 S64x1 S50000x64 [1] [1] [0] [0] [] []
  dot_S50000x64_S64x64_S50000x64_1_1_0_0_n_n_wf : DotDims.WF S50000x64 S64x64 S50000x64 [1] [1] [0] [0] [] []
  dot_S50000x64_S56x64_S50000x56_1_1_0_0_n_n_wf : DotDims.WF S50000x64 S56x64 S50000x56 [1] [1] [0] [0] [] []
  gather_S50000x56_S3000000x1_S3000000x56_1_0_n_n_0_1_156_wf : GatherDims.WF S50000x56 S3000000x1 S3000000x56 [1] [0] [] [0] [] 1 ![1, 56]
  scatter_S150000_S3000000x1_S3000000_n_0_0_1_wf : ScatterDims.WF S150000 S3000000x1 S3000000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x56.size a ≤ S3014656x56.size a
  hwx0_0 : ∀ i : grid0.Coords, EltTy.bits .f32 = 32 ∨ (Rect.block (s := S3014656x56) S16384x56.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16384x56.size a ≤ S3014656x56.size a
  hwx0_1 : ∀ i : grid0.Coords, EltTy.bits .f32 = 32 ∨ (Rect.block (s := S3014656x56) S16384x56.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16384x1.size a ≤ S3014656x1.size a
  hwx0_2 : ∀ i : grid0.Coords, EltTy.bits .f32 = 32 ∨ (Rect.block (s := S3014656x1) S16384x1.size (cc0_transform_2 i) (hinb0_2 i)).WholeWords (EltTy.packing .f32)

variable [Facts₀]

def dot_S50000x56_S56x64_S50000x64_1_0_0_1_n_n : DotDims S50000x56 S56x64 S50000x64 where
  lhsContracting := [1]
  rhsContracting := [0]
  lhsNonContracting := [0]
  rhsNonContracting := [1]
  lhsBatch := []
  rhsBatch := []
  wf := dot_S50000x56_S56x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf
def scatter_S100_S50000x1_S50000_n_0_0_1 : ScatterDims S100 S50000x1 S50000 where
  updateWindowDims := []
  insertedWindowDims := [0]
  scatterDimsToOperandDims := [0]
  indexVectorDim := 1
  wf := scatter_S100_S50000x1_S50000_n_0_0_1_wf
def dot_S50000x1_S64x1_S50000x64_1_1_0_0_n_n : DotDims S50000x1 S64x1 S50000x64 where
  lhsContracting := [1]
  rhsContracting := [1]
  lhsNonContracting := [0]
  rhsNonContracting := [0]
  lhsBatch := []
  rhsBatch := []
  wf := dot_S50000x1_S64x1_S50000x64_1_1_0_0_n_n_wf
def dot_S50000x64_S64x64_S50000x64_1_1_0_0_n_n : DotDims S50000x64 S64x64 S50000x64 where
  lhsContracting := [1]
  rhsContracting := [1]
  lhsNonContracting := [0]
  rhsNonContracting := [0]
  lhsBatch := []
  rhsBatch := []
  wf := dot_S50000x64_S64x64_S50000x64_1_1_0_0_n_n_wf
def dot_S50000x64_S56x64_S50000x56_1_1_0_0_n_n : DotDims S50000x64 S56x64 S50000x56 where
  lhsContracting := [1]
  rhsContracting := [1]
  lhsNonContracting := [0]
  rhsNonContracting := [0]
  lhsBatch := []
  rhsBatch := []
  wf := dot_S50000x64_S56x64_S50000x56_1_1_0_0_n_n_wf
def gather_S50000x56_S3000000x1_S3000000x56_1_0_n_n_0_1_156 : GatherDims S50000x56 S3000000x1 S3000000x56 where
  offsetDims := [1]
  collapsedSliceDims := [0]
  operandBatchingDims := []
  startIndicesBatchingDims := []
  startIndexMap := [0]
  indexVectorDim := 1
  sliceSizes := ![1, 56]
  wf := gather_S50000x56_S3000000x1_S3000000x56_1_0_n_n_0_1_156_wf
def scatter_S150000_S3000000x1_S3000000_n_0_0_1 : ScatterDims S150000 S3000000x1 S3000000 where
  updateWindowDims := []
  insertedWindowDims := [0]
  scatterDimsToOperandDims := [0]
  indexVectorDim := 1
  wf := scatter_S150000_S3000000x1_S3000000_n_0_0_1_wf

abbrev win0_0 : Pipeline.Window sig grid0 :=
  Pipeline.Window.ofSpec (Memref.whole main_v53) S16384x56.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v54) S16384x56.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v55) S16384x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S50000x56 : Shape := ⟨2, ![50000, 56]⟩
abbrev S3000000x56 : Shape := ⟨2, ![3000000, 56]⟩
abbrev S50000 : Shape := ⟨1, ![50000]⟩
abbrev S100 : Shape := ⟨1, ![100]⟩
abbrev S3000000x3 : Shape := ⟨2, ![3000000, 3]⟩
abbrev S3000000 : Shape := ⟨1, ![3000000]⟩
abbrev S56x64 : Shape := ⟨2, ![56, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S50000x64 : Shape := ⟨2, ![50000, 64]⟩
abbrev S1x64 : Shape := ⟨2, ![1, 64]⟩
abbrev S_ : Shape := ⟨0, ![]⟩
abbrev S50000x1 : Shape := ⟨2, ![50000, 1]⟩
abbrev S1x1 : Shape := ⟨2, ![1, 1]⟩
abbrev S3000000x1 : Shape := ⟨2, ![3000000, 1]⟩
abbrev S150000 : Shape := ⟨1, ![150000]⟩

abbrev nBuf : Space → Nat
  | .hbm => 124
  | .vmem => 0
  | .smem => 0
  | _ => 0

abbrev bufTy : (tb : Table) → Fin (tcTables nBuf tb) → BufTy
  | .hbm, ⟨0, _⟩ => ⟨S50000x56, .f32⟩
  | .hbm, ⟨1, _⟩ => ⟨S3000000x56, .f32⟩
  | .hbm, ⟨2, _⟩ => ⟨S50000, .i32⟩
  | .hbm, ⟨3, _⟩ => ⟨S100, .i32⟩
  | .hbm, ⟨4, _⟩ => ⟨S3000000x3, .i32⟩
  | .hbm, ⟨5, _⟩ => ⟨S3000000, .i32⟩
  | .hbm, ⟨6, _⟩ => ⟨S56x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x1, .f32⟩
  | .hbm, ⟨11, _⟩ => ⟨S1, .f32⟩
  | .hbm, ⟨12, _⟩ => ⟨S50000x64, .f32⟩
  | .hbm, ⟨13, _⟩ => ⟨S1x64, .f32⟩
  | .hbm, ⟨14, _⟩ => ⟨S50000x64, .f32⟩
  | .hbm, ⟨15, _⟩ => ⟨S50000x64, .f32⟩
  | .hbm, ⟨16, _⟩ => ⟨S50000x64, .f32⟩
  | .hbm, ⟨17, _⟩ => ⟨S50000x64, .f32⟩
  | .hbm, ⟨18, _⟩ => ⟨S_, .f32⟩
  | .hbm, ⟨19, _⟩ => ⟨S50000x64, .f32⟩
  | .hbm, ⟨20, _⟩ => ⟨S50000x64, .f32⟩
  | .hbm, ⟨21, _⟩ => ⟨S_, .f32⟩
  | .hbm, ⟨22, _⟩ => ⟨S50000x64, .f32⟩
  | .hbm, ⟨23, _⟩ => ⟨S50000x64, .f32⟩
  | .hbm, ⟨24, _⟩ => ⟨S50000x64, .f32⟩
  | .hbm, ⟨25, _⟩ => ⟨S50000x64, .f32⟩
  | .hbm, ⟨26, _⟩ => ⟨S1x64, .f32⟩
  | .hbm, ⟨27, _⟩ => ⟨S50000x64, .f32⟩
  | .hbm, ⟨28, _⟩ => ⟨S50000x64, .f32⟩
  | .hbm, ⟨29, _⟩ => ⟨S50000x64, .f32⟩
  | .hbm, ⟨30, _⟩ => ⟨S50000x64, .f32⟩
  | .hbm, ⟨31, _⟩ => ⟨S_, .f32⟩
  | .hbm, ⟨32, _⟩ => ⟨S50000x64, .f32⟩
  | .hbm, ⟨33, _⟩ => ⟨S50000x64, .f32⟩
  | .hbm, ⟨34, _⟩ => ⟨S_, .f32⟩
  | .hbm, ⟨35, _⟩ => ⟨S50000x64, .f32⟩
  | .hbm, ⟨36, _⟩ => ⟨S50000x64, .f32⟩
  | .hbm, ⟨37, _⟩ => ⟨S50000x64, .f32⟩
  | .hbm, ⟨38, _⟩ => ⟨S50000x1, .f32⟩
  | .hbm, ⟨39, _⟩ => ⟨S1x1, .f32⟩
  | .hbm, ⟨40, _⟩ => ⟨S50000x1, .f32⟩
  | .hbm, ⟨41, _⟩ => ⟨S50000x1, .f32⟩
  | .hbm, ⟨42, _⟩ => ⟨S50000, .f32⟩
  | .hbm, ⟨43, _⟩ => ⟨S_, .f32⟩
  | .hbm, ⟨44, _⟩ => ⟨S100, .f32⟩
  | .hbm, ⟨45, _⟩ => ⟨S50000x1, .i32⟩
  | .hbm, ⟨46, _⟩ => ⟨S100, .f32⟩
  | .hbm, ⟨47, _⟩ => ⟨S50000x64, .f32⟩
  | .hbm, ⟨48, _⟩ => ⟨S1x64, .f32⟩
  | .hbm, ⟨49, _⟩ => ⟨S50000x64, .f32⟩
  | .hbm, ⟨50, _⟩ => ⟨S50000x64, .f32⟩
  | .hbm, ⟨51, _⟩ => ⟨S50000x64, .f32⟩
  | .hbm, ⟨52, _⟩ => ⟨S50000x64, .f32⟩
  | .hbm, ⟨53, _⟩ => ⟨S_, .f32⟩
  | .hbm, ⟨54, _⟩ => ⟨S50000x64, .f32⟩
  | .hbm, ⟨55, _⟩ => ⟨S50000x64, .f32⟩
  | .hbm, ⟨56, _⟩ => ⟨S_, .f32⟩
  | .hbm, ⟨57, _⟩ => ⟨S50000x64, .f32⟩
  | .hbm, ⟨58, _⟩ => ⟨S50000x64, .f32⟩
  | .hbm, ⟨59, _⟩ => ⟨S_, .f32⟩
  | .hbm, ⟨60, _⟩ => ⟨S50000x64, .f32⟩
  | .hbm, ⟨61, _⟩ => ⟨S50000x64, .f32⟩
  | .hbm, ⟨62, _⟩ => ⟨S50000x64, .f32⟩
  | .hbm, ⟨63, _⟩ => ⟨S50000x64, .f32⟩
  | .hbm, ⟨64, _⟩ => ⟨S50000x64, .f32⟩
  | .hbm, ⟨65, _⟩ => ⟨S1x64, .f32⟩
  | .hbm, ⟨66, _⟩ => ⟨S50000x64, .f32⟩
  | .hbm, ⟨67, _⟩ => ⟨S50000x64, .f32⟩
  | .hbm, ⟨68, _⟩ => ⟨S50000x64, .f32⟩
  | .hbm, ⟨69, _⟩ => ⟨S50000x64, .f32⟩
  | .hbm, ⟨70, _⟩ => ⟨S_, .f32⟩
  | .hbm, ⟨71, _⟩ => ⟨S50000x64, .f32⟩
  | .hbm, ⟨72, _⟩ => ⟨S50000x64, .f32⟩
  | .hbm, ⟨73, _⟩ => ⟨S_, .f32⟩
  | .hbm, ⟨74, _⟩ => ⟨S50000x64, .f32⟩
  | .hbm, ⟨75, _⟩ => ⟨S50000x64, .f32⟩
  | .hbm, ⟨76, _⟩ => ⟨S_, .f32⟩
  | .hbm, ⟨77, _⟩ => ⟨S50000x64, .f32⟩
  | .hbm, ⟨78, _⟩ => ⟨S50000x64, .f32⟩
  | .hbm, ⟨79, _⟩ => ⟨S50000x64, .f32⟩
  | .hbm, ⟨80, _⟩ => ⟨S50000x64, .f32⟩
  | .hbm, ⟨81, _⟩ => ⟨S50000x1, .f32⟩
  | .hbm, ⟨82, _⟩ => ⟨S1x1, .f32⟩
  | .hbm, ⟨83, _⟩ => ⟨S50000x1, .f32⟩
  | .hbm, ⟨84, _⟩ => ⟨S50000x1, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S50000x1, .f32⟩
  | .hbm, ⟨89, _⟩ => ⟨S50000x64, .f32⟩
  | .hbm, ⟨90, _⟩ => ⟨S50000x64, .f32⟩
  | .hbm, ⟨91, _⟩ => ⟨S50000x64, .f32⟩
  | .hbm, ⟨92, _⟩ => ⟨S50000x64, .f32⟩
  | .hbm, ⟨93, _⟩ => ⟨S50000x64, .f32⟩
  | .hbm, ⟨94, _⟩ => ⟨S50000x64, .f32⟩
  | .hbm, ⟨95, _⟩ => ⟨S50000x64, .f32⟩
  | .hbm, ⟨96, _⟩ => ⟨S50000x64, .f32⟩
  | .hbm, ⟨97, _⟩ => ⟨S50000x64, .f32⟩
  | .hbm, ⟨98, _⟩ => ⟨S50000x64, .f32⟩
  | .hbm, ⟨99, _⟩ => ⟨S50000x56, .f32⟩
  | .hbm, ⟨100, _⟩ => ⟨S3000000x1, .i32⟩
  | .hbm, ⟨101, _⟩ => ⟨S3000000, .i32⟩
  | .hbm, ⟨102, _⟩ => ⟨S_, .i32⟩
  | .hbm, ⟨103, _⟩ => ⟨S3000000, .i32⟩
  | .hbm, ⟨104, _⟩ => ⟨S3000000, .i1⟩
  | .hbm, ⟨105, _⟩ => ⟨S_, .i32⟩
  | .hbm, ⟨106, _⟩ => ⟨S3000000, .i32⟩
  | .hbm, ⟨107, _⟩ => ⟨S3000000, .i32⟩
  | .hbm, ⟨108, _⟩ => ⟨S3000000, .i32⟩
  | .hbm, ⟨109, _⟩ => ⟨S3000000x1, .i32⟩
  | .hbm, ⟨110, _⟩ => ⟨S3000000x56, .f32⟩
  | .hbm, ⟨111, _⟩ => ⟨S3000000x56, .f32⟩
  | .hbm, ⟨112, _⟩ => ⟨S_, .f32⟩
  | .hbm, ⟨113, _⟩ => ⟨S3000000, .f32⟩
  | .hbm, ⟨114, _⟩ => ⟨S_, .i32⟩
  | .hbm, ⟨115, _⟩ => ⟨S3000000, .i32⟩
  | .hbm, ⟨116, _⟩ => ⟨S3000000, .i32⟩
  | .hbm, ⟨117, _⟩ => ⟨S3000000x1, .i32⟩
  | .hbm, ⟨118, _⟩ => ⟨S3000000, .i32⟩
  | .hbm, ⟨119, _⟩ => ⟨S3000000, .i32⟩
  | .hbm, ⟨120, _⟩ => ⟨S_, .f32⟩
  | .hbm, ⟨121, _⟩ => ⟨S150000, .f32⟩
  | .hbm, ⟨122, _⟩ => ⟨S3000000x1, .i32⟩
  | .hbm, ⟨123, _⟩ => ⟨S150000, .f32⟩
  | _, _ => ⟨S50000x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_call1_v0 : Ref sig .tc := ⟨.hbm, 29, rfl⟩
abbrev main_call1_v1 : Ref sig .tc := ⟨.hbm, 30, rfl⟩
abbrev main_call1_cst : Ref sig .tc := ⟨.hbm, 31, rfl⟩
abbrev main_call1_v2 : Ref sig .tc := ⟨.hbm, 32, rfl⟩
abbrev main_call1_v3 : Ref sig .tc := ⟨.hbm, 33, rfl⟩
abbrev main_call1_cst_0 : Ref sig .tc := ⟨.hbm, 34, rfl⟩
abbrev main_call1_v4 : Ref sig .tc := ⟨.hbm, 35, rfl⟩
abbrev main_call1_v5 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_cst : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_call2_v0 : Ref sig .tc := ⟨.hbm, 51, rfl⟩
abbrev main_call2_v1 : Ref sig .tc := ⟨.hbm, 52, rfl⟩
abbrev main_call2_cst : Ref sig .tc := ⟨.hbm, 53, rfl⟩
abbrev main_call2_v2 : Ref sig .tc := ⟨.hbm, 54, rfl⟩
abbrev main_call2_v3 : Ref sig .tc := ⟨.hbm, 55, rfl⟩
abbrev main_call2_cst_0 : Ref sig .tc := ⟨.hbm, 56, rfl⟩
abbrev main_call2_v4 : Ref sig .tc := ⟨.hbm, 57, rfl⟩
abbrev main_v22_2 : Ref sig .tc := ⟨.hbm, 58, rfl⟩
abbrev main_call2_cst_1 : Ref sig .tc := ⟨.hbm, 59, rfl⟩
abbrev main_call2_v6 : Ref sig .tc := ⟨.hbm, 60, rfl⟩
abbrev main_call2_v7 : Ref sig .tc := ⟨.hbm, 61, rfl⟩
abbrev main_v22_1 : Ref sig .tc := ⟨.hbm, 62, rfl⟩
abbrev main_v22_0 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_call3_v0 : Ref sig .tc := ⟨.hbm, 68, rfl⟩
abbrev main_call3_v1 : Ref sig .tc := ⟨.hbm, 69, rfl⟩
abbrev main_call3_cst : Ref sig .tc := ⟨.hbm, 70, rfl⟩
abbrev main_call3_v2 : Ref sig .tc := ⟨.hbm, 71, rfl⟩
abbrev main_call3_v3 : Ref sig .tc := ⟨.hbm, 72, rfl⟩
abbrev main_call3_cst_0 : Ref sig .tc := ⟨.hbm, 73, rfl⟩
abbrev main_call3_v4 : Ref sig .tc := ⟨.hbm, 74, rfl⟩
abbrev main_v27_2 : Ref sig .tc := ⟨.hbm, 75, rfl⟩
abbrev main_call3_cst_1 : Ref sig .tc := ⟨.hbm, 76, rfl⟩
abbrev main_call3_v6 : Ref sig .tc := ⟨.hbm, 77, rfl⟩
abbrev main_call3_v7 : Ref sig .tc := ⟨.hbm, 78, rfl⟩
abbrev main_v27_1 : Ref sig .tc := ⟨.hbm, 79, rfl⟩
abbrev main_v27_0 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_cst_0 : Ref sig .tc := ⟨.hbm, 85, rfl⟩
abbrev main_v32 : Ref sig .tc := ⟨.hbm, 86, rfl⟩
abbrev main_cst_1 : Ref sig .tc := ⟨.hbm, 87, rfl⟩
abbrev main_v33 : Ref sig .tc := ⟨.hbm, 88, rfl⟩
abbrev main_v34 : Ref sig .tc := ⟨.hbm, 89, rfl⟩
abbrev main_call4_v0 : Ref sig .tc := ⟨.hbm, 90, rfl⟩
abbrev main_call4_v1 : Ref sig .tc := ⟨.hbm, 91, rfl⟩
abbrev main_call4_v2 : Ref sig .tc := ⟨.hbm, 92, rfl⟩
abbrev main_v35 : Ref sig .tc := ⟨.hbm, 93, rfl⟩
abbrev main_v36 : Ref sig .tc := ⟨.hbm, 94, rfl⟩
abbrev main_call5_v0 : Ref sig .tc := ⟨.hbm, 95, rfl⟩
abbrev main_call5_v1 : Ref sig .tc := ⟨.hbm, 96, rfl⟩
abbrev main_call5_v2 : Ref sig .tc := ⟨.hbm, 97, rfl⟩
abbrev main_v37 : Ref sig .tc := ⟨.hbm, 98, rfl⟩
abbrev main_v38 : Ref sig .tc := ⟨.hbm, 99, rfl⟩
abbrev main_v39 : Ref sig .tc := ⟨.hbm, 100, rfl⟩
abbrev main_v40 : Ref sig .tc := ⟨.hbm, 101, rfl⟩
abbrev main_c : Ref sig .tc := ⟨.hbm, 102, rfl⟩
abbrev main_v41 : Ref sig .tc := ⟨.hbm, 103, rfl⟩
abbrev main_v42 : Ref sig .tc := ⟨.hbm, 104, rfl⟩
abbrev main_c_2 : Ref sig .tc := ⟨.hbm, 105, rfl⟩
abbrev main_v43 : Ref sig .tc := ⟨.hbm, 106, rfl⟩
abbrev main_v44 : Ref sig .tc := ⟨.hbm, 107, rfl⟩
abbrev main_v45 : Ref sig .tc := ⟨.hbm, 108, rfl⟩
abbrev main_v46 : Ref sig .tc := ⟨.hbm, 109, rfl⟩
abbrev main_v47 : Ref sig .tc := ⟨.hbm, 110, rfl⟩
abbrev main_v48 : Ref sig .tc := ⟨.hbm, 111, rfl⟩
abbrev main_cst_3 : Ref sig .tc := ⟨.hbm, 112, rfl⟩
abbrev main_v49 : Ref sig .tc := ⟨.hbm, 113, rfl⟩
abbrev main_c_4 : Ref sig .tc := ⟨.hbm, 114, rfl⟩
abbrev main_v50 : Ref sig .tc := ⟨.hbm, 115, rfl⟩
abbrev main_v51 : Ref sig .tc := ⟨.hbm, 116, rfl⟩
abbrev main_v52 : Ref sig .tc := ⟨.hbm, 117, rfl⟩
abbrev main_v53 : Ref sig .tc := ⟨.hbm, 118, rfl⟩
abbrev main_v54 : Ref sig .tc := ⟨.hbm, 119, rfl⟩
abbrev main_cst_5 : Ref sig .tc := ⟨.hbm, 120, rfl⟩
abbrev main_v55 : Ref sig .tc := ⟨.hbm, 121, rfl⟩
abbrev main_v56 : Ref sig .tc := ⟨.hbm, 122, rfl⟩
abbrev main_v57 : Ref sig .tc := ⟨.hbm, 123, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S50000 : S50000x1.ShapeCasts S50000
  bcast_S_S100 : S_.BroadcastsInDim S100 (![] : Fin 0 → Fin S100.rank)
  bcast_S50000_S50000x1_0 : S50000.BroadcastsInDim S50000x1 (![0] : Fin 1 → Fin S50000x1.rank)
  reducesTo_S50000x1_S_d0_1 : S50000x1.ReducesTo [0, 1] S_
  h_S_ : 0 < S_.numel
  bcast_S_S50000x1 : S_.BroadcastsInDim S50000x1 (![] : Fin 0 → Fin S50000x1.rank)
  slices_S3000000x3_S3000000x1_0_0 : S3000000x3.Slices ![0, 0] S3000000x1
  shapeCasts_S3000000x1_S3000000 : S3000000x1.ShapeCasts S3000000
  bcast_S_S3000000 : S_.BroadcastsInDim S3000000 (![] : Fin 0 → Fin S3000000.rank)
  bcast_S3000000_S3000000x1_0 : S3000000.BroadcastsInDim S3000000x1 (![0] : Fin 1 → Fin S3000000x1.rank)
  reducesTo_S3000000x56_S3000000_d1 : S3000000x56.ReducesTo [1] S3000000
  slices_S3000000x3_S3000000x1_0_2 : S3000000x3.Slices ![0, 2] S3000000x1
  bcast_S_S150000 : S_.BroadcastsInDim S150000 (![] : Fin 0 → Fin S150000.rank)
  dot_S50000x56_S56x64_S50000x64_1_0_0_1_n_n_wf : DotDims.WF S50000x56 S56x64 S50000x64 [1] [0] [0] [1] [] []
  dot_S50000x64_S64x64_S50000x64_1_0_0_1_n_n_wf : DotDims.WF S50000x64 S64x64 S50000x64 [1] [0] [0] [1] [] []
  dot_S50000x64_S64x1_S50000x1_1_0_0_1_n_n_wf : DotDims.WF S50000x64 S64x1 S50000x1 [1] [0] [0] [1] [] []
  scatter_S100_S50000x1_S50000_n_0_0_1_wf : ScatterDims.WF S100 S50000x1 S50000 [] [0] [0] 1
  dot_S50000x1_S64x1_S50000x64_1_1_0_0_n_n_wf : DotDims.WF S50000x1 S64x1 S50000x64 [1] [1] [0] [0] [] []
  dot_S50000x64_S64x64_S50000x64_1_1_0_0_n_n_wf : DotDims.WF S50000x64 S64x64 S50000x64 [1] [1] [0] [0] [] []
  dot_S50000x64_S56x64_S50000x56_1_1_0_0_n_n_wf : DotDims.WF S50000x64 S56x64 S50000x56 [1] [1] [0] [0] [] []
  gather_S50000x56_S3000000x1_S3000000x56_1_0_n_n_0_1_156_wf : GatherDims.WF S50000x56 S3000000x1 S3000000x56 [1] [0] [] [0] [] 1 ![1, 56]
  scatter_S150000_S3000000x1_S3000000_n_0_0_1_wf : ScatterDims.WF S150000 S3000000x1 S3000000 [] [0] [0] 1

variable [Facts₀]

def dot_S50000x56_S56x64_S50000x64_1_0_0_1_n_n : DotDims S50000x56 S56x64 S50000x64 where
  lhsContracting := [1]
  rhsContracting := [0]
  lhsNonContracting := [0]
  rhsNonContracting := [1]
  lhsBatch := []
  rhsBatch := []
  wf := dot_S50000x56_S56x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf
def scatter_S100_S50000x1_S50000_n_0_0_1 : ScatterDims S100 S50000x1 S50000 where
  updateWindowDims := []
  insertedWindowDims := [0]
  scatterDimsToOperandDims := [0]
  indexVectorDim := 1
  wf := scatter_S100_S50000x1_S50000_n_0_0_1_wf
def dot_S50000x1_S64x1_S50000x64_1_1_0_0_n_n : DotDims S50000x1 S64x1 S50000x64 where
  lhsContracting := [1]
  rhsContracting := [1]
  lhsNonContracting := [0]
  rhsNonContracting := [0]
  lhsBatch := []
  rhsBatch := []
  wf := dot_S50000x1_S64x1_S50000x64_1_1_0_0_n_n_wf
def dot_S50000x64_S64x64_S50000x64_1_1_0_0_n_n : DotDims S50000x64 S64x64 S50000x64 where
  lhsContracting := [1]
  rhsContracting := [1]
  lhsNonContracting := [0]
  rhsNonContracting := [0]
  lhsBatch := []
  rhsBatch := []
  wf := dot_S50000x64_S64x64_S50000x64_1_1_0_0_n_n_wf
def dot_S50000x64_S56x64_S50000x56_1_1_0_0_n_n : DotDims S50000x64 S56x64 S50000x56 where
  lhsContracting := [1]
  rhsContracting := [1]
  lhsNonContracting := [0]
  rhsNonContracting := [0]
  lhsBatch := []
  rhsBatch := []
  wf := dot_S50000x64_S56x64_S50000x56_1_1_0_0_n_n_wf
def gather_S50000x56_S3000000x1_S3000000x56_1_0_n_n_0_1_156 : GatherDims S50000x56 S3000000x1 S3000000x56 where
  offsetDims := [1]
  collapsedSliceDims := [0]
  operandBatchingDims := []
  startIndicesBatchingDims := []
  startIndexMap := [0]
  indexVectorDim := 1
  sliceSizes := ![1, 56]
  wf := gather_S50000x56_S3000000x1_S3000000x56_1_0_n_n_0_1_156_wf
def scatter_S150000_S3000000x1_S3000000_n_0_0_1 : ScatterDims S150000 S3000000x1 S3000000 where
  updateWindowDims := []
  insertedWindowDims := [0]
  scatterDimsToOperandDims := [0]
  indexVectorDim := 1
  wf := scatter_S150000_S3000000x1_S3000000_n_0_0_1_wf

class Facts : Prop extends Facts₀ where

variable [Facts]
-- ==== Proof.RowSums.lean ====
/-
  Row sums of a product of two [3000000, 56] arrays, two ways.

  The tiled route pads both arrays with 14656 extra rows (to 184 tiles of 16384 rows), takes for every padded row r
  the sum over the 56 columns of the products X[r,k] * Y[r,k] as a column [3014656, 1], cuts the column back to its
  first 3000000 rows and flattens it. The direct route multiplies the two arrays entry by entry and sums every row
  from the initial value 0. On the extended reals the two agree: a row below 3000000 of a padded array is the row
  of the array itself (the padding value is never read), and 0 + s = s.
-/
import Idealize.ShloMosaic.PureOps.Ideal.Laws
import Idealize.ShloMosaic.Lib.ValueIdx
import Idealize.ShloMosaic.Lib.Pipeline.Value
import Idealize.ShloMosaic.Lib.KernelVsHost
import Idealize.ShloMosaic.Lib.IdealHost

noncomputable section

open Idealize.ShloMosaic Idealize.ShloMosaic.ValueIdx

namespace Cert.RowSums

/-- The derivative rows: 3000000 rows of 56 descriptor entries. -/
abbrev Rows : Shape := ⟨2, ![3000000, 56]⟩
/-- The same padded to 184 tiles of 16384 rows. -/
abbrev RowsP : Shape := ⟨2, ![3014656, 56]⟩
/-- One value per padded row, kept as a column. -/
abbrev ColP : Shape := ⟨2, ![3014656, 1]⟩
/-- One value per row, as a column. -/
abbrev Col : Shape := ⟨2, ![3000000, 1]⟩
/-- One value per row. -/
abbrev Vals : Shape := ⟨1, ![3000000]⟩
/-- A scalar. -/
abbrev Sc : Shape := ⟨0, ![]⟩

/-- Row r of the result is the inner product of row r of X with row r of Y. -/
def rowDot (X Y : RowsP.Idx → EReal) : ColP.Idx → EReal := fun i =>
  ∑ k : Fin 56, X (ix2 (⟨(i 0).val, (i 0).isLt⟩ : Fin 3014656) k) * Y (ix2 (⟨(i 0).val, (i 0).isLt⟩ : Fin 3014656) k)

/-- A padded array read at a row below 3000000 is the array itself there. -/
theorem pad_row (A : Rows.Idx → EReal) (p : Sc.Idx → EReal) (hp : Rows.Pads ![0, 0] ![14656, 0] ![0, 0] RowsP)
    (hu : 0 < Sc.numel) (r : Fin 3000000) (hr : r.val < 3014656) (k : Fin 56) :
    pad RowsP ![0, 0] ![14656, 0] ![0, 0] A p hp hu (ix2 (⟨r.val, hr⟩ : Fin 3014656) k) = A (ix2 r k) :=
  pad_apply_of_inside ![0, 0] ![14656, 0] ![0, 0] A p hp hu _ (ix2 r k) fun a => by
    match a with
    | ⟨0, _⟩ => show r.val = 0 + r.val * (0 + 1); omega
    | ⟨1, _⟩ => show k.val = 0 + k.val * (0 + 1); omega

/-- The tiled route's values are the direct route's. -/
theorem rows_eq (A B : FVec Ideal Rows .f32) (p q : FVec Ideal Sc .f32)
    (hpA hpB : Rows.Pads ![0, 0] ![14656, 0] ![0, 0] RowsP) (hu : 0 < Sc.numel)
    (hs : ColP.Slices ![0, 0] Col) (hc : Col.ShapeCasts Vals)
    (hr : Rows.ReducesTo [1] Vals) (hR : Rows.Reduces [1] Vals) :
    shapeCast Vals (extractStridedSlice Col ![0, 0]
        (rowDot (pad RowsP ![0, 0] ![14656, 0] ![0, 0] A p hpA hu) (pad RowsP ![0, 0] ![14656, 0] ![0, 0] B q hpB hu)) hs) hc
      = Host.reduceAdd (F := Ideal) (mulf A B) (constant (F := Ideal) Sc .f32 0x00000000#32) hr hu := by
  funext j
  obtain ⟨r, rfl⟩ : ∃ r : Fin 3000000, j = ix1 r := ⟨j 0, eq_ix1 j⟩
  have hr' : r.val < 3014656 := by have := r.isLt; omega
  rw [shapeCast_apply _ hc (ix1 r) (ix2 r (0 : Fin 1)) (by
    rw [Shape.rowMajor_val_two, Shape.rowMajor_val_one]; show r.val * 1 + 0 = r.val; omega)]
  rw [extractStridedSlice_apply ![0, 0] _ hs (ix2 r (0 : Fin 1)) (ix2 (⟨r.val, hr'⟩ : Fin 3014656) (0 : Fin 1)) (fun a => by
    match a with
    | ⟨0, _⟩ => show r.val = 0 + r.val; omega
    | ⟨1, _⟩ => show (0 : Nat) = 0 + 0; rfl)]
  rw [hostReduceAdd_apply, Ideal.hostReduceAdd_single hr hR, constant_apply, Ideal.ofBits_zero_f32, zero_add]
  show ∑ k : Fin 56, _ = ∑ k : Fin 56, _
  refine Finset.sum_congr rfl fun k _ => ?_
  rw [mulf_apply]
  have hl : hR.lift (ix1 r) k = ix2 r k := funext fun a => Fin.ext (by
    match a with
    | ⟨0, _⟩ => rfl
    | ⟨1, _⟩ => rfl)
  rw [hl]
  exact congrArg₂ (· * ·) (pad_row A p hpA hu r hr' k) (pad_row B q hpB hu r hr' k)

end Cert.RowSums

end
-- ==== Proof.KernelRows.lean ====
/-
  What the mul-reduce region leaves in its output array.

  At grid point t the body loads the two [16384, 56] tiles (rows 16384 t … 16384 t + 16383 of the two padded operands),
  multiplies them entry by entry, sums each row over its 56 columns and stores the [16384, 1] column of sums. The 184
  points' output tiles are disjoint and together cover the [3014656, 1] result, so after the run row r of the result
  is the inner product of row r of the first operand with row r of the second: `RowSums.rowDot` of the two arrays
  the region finds in its windows.
-/
import proofs.«170760_j87857851007474_1_alg».proof.Proof.Gen.KernelIdeal.Frame
import proofs.«170760_j87857851007474_1_alg».proof.Proof.RowSums
import Idealize.ShloMosaic.PureOps.Ideal.Laws
import Idealize.ShloMosaic.Lib.ValueIdx
import Idealize.ShloMosaic.Lib.Pipeline.Value

noncomputable section

open Idealize.ShloMosaic Idealize.ShloMosaic.TcCoe Idealize.ShloMosaic.ValueIdx Idealize.SL.Sem
open Idealize.ShloMosaic.Pipeline (Dat)

namespace Cert.KernelIdeal.Rows

open Cert.KernelIdeal Cert.KernelIdeal.Gen Cert.RowSums

variable (m : (ℓ : Loc nD τ sig) → Buf (Elt Ideal) ℓ)

theorem hz : (![0, 0] : Fin 2 → Nat) = fun _ => 0 := funext fun a => by fin_cases a <;> rfl

/-- The stored column at row p of a tile: the sum over the 56 columns of the two loaded tiles' products. -/
theorem pay_row (x0 x1 : Vec Ideal S16384x56 .f32) (p : Fin 16384) :
    k0_pay1 (F := Ideal) x0 x1 (ix2 p (0 : Fin 1)) = ∑ k : Fin 56, x0 (ix2 p k) * x1 (ix2 p k) := by
  unfold k0_pay1
  dsimp only
  refine (shapeCast_apply _ _ (ix2 p (0 : Fin 1)) (ix1 p) (by
    rw [Shape.rowMajor_val_two, Shape.rowMajor_val_one]; show p.val = p.val * 1 + 0; omega)).trans ?_
  refine (Ideal.multiReduction_add_single _ _ reduces_S16384x56_S16384 _ _ (ix1 p)).trans ?_
  show ∑ k : Fin 56, _ = ∑ k : Fin 56, _
  refine Finset.sum_congr rfl fun k _ => ?_
  have hl : reduces_S16384x56_S16384.lift (ix1 p) k = ix2 p k := funext fun a => Fin.ext (by
    match a with
    | ⟨0, _⟩ => rfl
    | ⟨1, _⟩ => rfl)
  rw [hl, mulf_apply, shapeCast_self, shapeCast_self]

/-- The printed index maps over the 184 points: every window's tile at point t starts at row 16384 t, column 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point t writes back is tile t of the row inner products of the two window arrays. -/
theorem flushed_eq (c : Dev nD) (t : Fin cfg0.N) :
    (dats m 0 c).flushed 2 t = ((cfg0.win 2).blk t).view.read (Elt Ideal) (rowDot (V m c main_v53) (V m c main_v54)) := by
  show (cfg0.win 2).cut (grid0.coords t) ((dats m 0 c).after 2 t) = _
  rw [after0_2]
  unfold out0_2
  rw [View.canon_unit_zero hz]
  simp only [View.ld_unit_zero (S := S16384x56) hz]
  obtain ⟨e0, e1, e2, e3, e4, e5⟩ := idx_facts t
  funext j
  obtain ⟨p, q, rfl⟩ : ∃ (p : Fin 16384) (q : Fin 1), j = ix2 p q := ⟨j 0, j 1, eq_ix2 j⟩
  obtain rfl : q = 0 := Subsingleton.elim _ _
  show k0_pay1 (F := Ideal) (iblk m c 0 t) (iblk m c 1 t) (ix2 p (0 : Fin 1)) = rowDot (V m c main_v53) (V m c main_v54) (((cfg0.win 2).blk t).view.emb (ix2 p (0 : Fin 1)))
  refine (pay_row (iblk m c 0 t) (iblk m c 1 t) p).trans ?_
  unfold rowDot
  refine Finset.sum_congr rfl fun k _ => ?_
  have h0 : (iblk m c 0 t : Vec Ideal S16384x56 .f32) (ix2 p k) = V m c main_v53 (ix2 (⟨((((cfg0.win 2).blk t).view.emb (ix2 p (0 : Fin 1))) 0).val, ((((cfg0.win 2).blk t).view.emb (ix2 p (0 : Fin 1))) 0).isLt⟩ : Fin 3014656) k) := by
    unfold iblk
    show V m c main_v53 (((cfg0.win 0).blk t).view.emb (ix2 p k)) = _
    refine congrArg (V m c main_v53) (funext fun a => Fin.ext ?_)
    match a with
    | ⟨0, _⟩ => show win0_0.index t (0 : Fin 2) * 16384 + 1 * p.val = win0_2.index t (0 : Fin 2) * 16384 + 1 * p.val; rw [e0, e4]
    | ⟨1, _⟩ => show win0_0.index t (1 : Fin 2) * 56 + 1 * k.val = k.val; rw [e1]; omega
  have h1 : (iblk m c 1 t : Vec Ideal S16384x56 .f32) (ix2 p k) = V m c main_v54 (ix2 (⟨((((cfg0.win 2).blk t).view.emb (ix2 p (0 : Fin 1))) 0).val, ((((cfg0.win 2).blk t).view.emb (ix2 p (0 : Fin 1))) 0).isLt⟩ : Fin 3014656) k) := by
    unfold iblk
    show V m c main_v54 (((cfg0.win 1).blk t).view.emb (ix2 p k)) = _
    refine congrArg (V m c main_v54) (funext fun a => Fin.ext ?_)
    match a with
    | ⟨0, _⟩ => show win0_1.index t (0 : Fin 2) * 16384 + 1 * p.val = win0_2.index t (0 : Fin 2) * 16384 + 1 * p.val; rw [e2, e4]
    | ⟨1, _⟩ => show win0_1.index t (1 : Fin 2) * 56 + 1 * k.val = k.val; rw [e3]; omega
  exact congrArg₂ (· * ·) h0 h1

/-- An index of the result is in point t's tile iff each coordinate is in the tile's range on its axis. -/
theorem mem_blk (t : Fin cfg0.N) (i : S3014656x1.Idx) :
    i ∈ ((cfg0.win 2).blk t).view.set ↔ ∀ a : Fin 2, win0_2.index t a * S16384x1.size a ≤ (i a).val ∧ (i a).val < win0_2.index t a * S16384x1.size a + S16384x1.size a := by
  show i ∈ ((View.whole main_v55).slice (win0_2.rect t)).set ↔ _
  rw [View.set_slice_whole, Rect.mem_set_unit]
  exact Iff.rfl

/-- The result array after the run: every row's inner product. Row r lies in the tile of point r / 16384. -/
theorem final (c : Dev nD) : (dats m 0 c).arrAt 2 cfg0.N = rowDot (V m c main_v53) (V m c main_v54) :=
  (dats m 0 c).arrAt_eq_of_cover 2 (rowDot (V m c main_v53) (V m c main_v54)) (fun t _ => flushed_eq m c t) fun i => by
    have hi0 : (i 0).val < 3014656 := (i 0).isLt
    have hi1 : (i 1).val < 1 := (i 1).isLt
    have hN : cfg0.N = 184 := N_0
    have ht : (i 0).val / 16384 < cfg0.N := by rw [hN]; omega
    refine ⟨⟨(i 0).val / 16384, ht⟩, flush0_2 _, ?_⟩
    rw [mem_blk]
    obtain ⟨-, -, -, -, e4, e5⟩ := idx_facts ⟨(i 0).val / 16384, ht⟩
    intro a
    match a with
    | ⟨0, _⟩ =>
      show win0_2.index ⟨(i 0).val / 16384, ht⟩ (0 : Fin 2) * 16384 ≤ (i 0).val ∧ (i 0).val < win0_2.index ⟨(i 0).val / 16384, ht⟩ (0 : Fin 2) * 16384 + 16384
      rw [e4]; show (i 0).val / 16384 * 16384 ≤ (i 0).val ∧ (i 0).val < (i 0).val / 16384 * 16384 + 16384; omega
    | ⟨1, _⟩ =>
      show win0_2.index ⟨(i 0).val / 16384, ht⟩ (1 : Fin 2) * 1 ≤ (i 1).val ∧ (i 1).val < win0_2.index ⟨(i 0).val / 16384, ht⟩ (1 : Fin 2) * 1 + 1
      rw [e5]; omega

end Cert.KernelIdeal.Rows

end
-- ==== Proof.Net.lean ====
/-
  The mathematics both programs compute, named once.

  A three-layer perceptron with silu activations gives every atom an energy
      e(x) = silu(silu(x W1 + b1) W2 + b2) W3 + b3,
  summed per structure (a segment sum over `indices`). The forces need the gradient of the total energy in the
  descriptors x, which is the chain rule through the two activations: with z1 = x W1 + b1, z2 = silu(z1) W2 + b2 and
  s(z) = 1 / (1 + exp(-z)),
      d silu(z) · g = g s(z) + (z g) (s(z) (1 - s(z))),
      dE/dx = (d silu(z1) · ((d silu(z2) · (1 W3ᵀ)) W2ᵀ)) W1ᵀ.
  Every derivative row i picks the gradient row of its atom (a gather at column 0 of `xd_indx`, negative indices
  wrapped by 50000), the row's value is its inner product with that gradient row, and the values are summed into the
  force components 3 j + coord (a segment sum again).

  The definitions below spell exactly these steps with the reference program's own dimension records, so that each
  program's term is one of them after unfolding.
-/
import proofs.«170760_j87857851007474_1_alg».proof.ReferenceIdeal
import proofs.«170760_j87857851007474_1_alg».proof.Proof.Gen.ReferenceIdeal

noncomputable section

open Idealize.ShloMosaic

namespace Cert.Net

open Cert.ReferenceIdeal Cert.ReferenceIdeal.Facts₀ Cert.ReferenceIdeal.Facts

variable {F : FTy → Type} [FloatOps F]

/-- The first affine layer, the bias broadcast over the 50000 atoms. -/
def lin1 (x : FVec F S50000x56 .f32) (W1 : FVec F S56x64 .f32) (b1 : FVec F S64 .f32) : FVec F S50000x64 .f32 :=
  addf (Host.dotGeneral dot_S50000x56_S56x64_S50000x64_1_0_0_1_n_n none x W1)
    (broadcastInDim S50000x64 ![0, 1] bcast_S1x64_S50000x64_0_1 (broadcastInDim S1x64 ![1] bcast_S64_S1x64_1 b1))

/-- The second affine layer. -/
def lin2 (h : FVec F S50000x64 .f32) (W2 : FVec F S64x64 .f32) (b2 : FVec F S64 .f32) : FVec F S50000x64 .f32 :=
  addf (Host.dotGeneral dot_S50000x64_S64x64_S50000x64_1_0_0_1_n_n none h W2)
    (broadcastInDim S50000x64 ![0, 1] bcast_S1x64_S50000x64_0_1 (broadcastInDim S1x64 ![1] bcast_S64_S1x64_1 b2))

/-- The output layer: one energy per atom, as a column. -/
def lin3 (h : FVec F S50000x64 .f32) (W3 : FVec F S64x1 .f32) (b3 : FVec F S1 .f32) : FVec F S50000x1 .f32 :=
  addf (Host.dotGeneral dot_S50000x64_S64x1_S50000x1_1_0_0_1_n_n none h W3)
    (broadcastInDim S50000x1 ![0, 1] bcast_S1x1_S50000x1_0_1 (broadcastInDim S1x1 ![1] bcast_S1_S1x1_1 b3))

/-- The constant 1 on a hidden layer. -/
def ones : FVec F S50000x64 .f32 := broadcastInDim S50000x64 ![] bcast_S_S50000x64 (constant S_ .f32 0x3F800000#32)

/-- The logistic function s(z) = 1 / (1 + exp(-z)). -/
def sigm (z : FVec F S50000x64 .f32) : FVec F S50000x64 .f32 := Host.divf ones (addf ones (Host.exp (Host.negf z)))

/-- silu(z) = z s(z). -/
def silu (z : FVec F S50000x64 .f32) : FVec F S50000x64 .f32 := mulf z (sigm z)

/-- s'(z) = s(z) (1 - s(z)). -/
def dsigm (z : FVec F S50000x64 .f32) : FVec F S50000x64 .f32 := mulf (sigm z) (subf ones (sigm z))

/-- The cotangent g pulled back through silu at z: g s(z) + (z g) s'(z). -/
def dsilu (z g : FVec F S50000x64 .f32) : FVec F S50000x64 .f32 := addf (mulf g (sigm z)) (mulf (mulf z g) (dsigm z))

/-- The second layer's pre-activation. -/
def z2 (x : FVec F S50000x56 .f32) (W1 : FVec F S56x64 .f32) (b1 : FVec F S64 .f32) (W2 : FVec F S64x64 .f32) (b2 : FVec F S64 .f32) :
    FVec F S50000x64 .f32 := lin2 (silu (lin1 x W1 b1)) W2 b2

/-- The per-structure energies: the per-atom energies summed by structure. -/
def energy (x : FVec F S50000x56 .f32) (idx : (⟨S50000, .i32⟩ : BufTy).Contents (Elt F)) (W1 : FVec F S56x64 .f32) (b1 : FVec F S64 .f32)
    (W2 : FVec F S64x64 .f32) (b2 : FVec F S64 .f32) (W3 : FVec F S64x1 .f32) (b3 : FVec F S1 .f32) : FVec F S100 .f32 :=
  Host.scatterAdd scatter_S100_S50000x1_S50000_n_0_0_1 (broadcastInDim S100 ![] bcast_S_S100 (constant S_ .f32 0x00000000#32))
    (broadcastInDim S50000x1 ![0] bcast_S50000_S50000x1_0 idx)
    (shapeCast S50000 (lin3 (silu (z2 x W1 b1 W2 b2)) W3 b3) shapeCasts_S50000x1_S50000)

/-- The gradient of the total energy in the descriptors. -/
def grad (x : FVec F S50000x56 .f32) (W1 : FVec F S56x64 .f32) (b1 : FVec F S64 .f32) (W2 : FVec F S64x64 .f32) (b2 : FVec F S64 .f32)
    (W3 : FVec F S64x1 .f32) : FVec F S50000x56 .f32 :=
  Host.dotGeneral dot_S50000x64_S56x64_S50000x56_1_1_0_0_n_n none
    (dsilu (lin1 x W1 b1)
      (Host.dotGeneral dot_S50000x64_S64x64_S50000x64_1_1_0_0_n_n none
        (dsilu (z2 x W1 b1 W2 b2)
          (Host.dotGeneral dot_S50000x1_S64x1_S50000x64_1_1_0_0_n_n none
            (broadcastInDim S50000x1 ![] bcast_S_S50000x1 (constant S_ .f32 0x3F800000#32)) W3))
        W2))
    W1

/-- Column 0 of the index table: the atom whose gradient row a derivative row takes, a negative index wrapped by 50000. -/
def atomIdx (t : (⟨S3000000x3, .i32⟩ : BufTy).Contents (Elt F)) : (⟨S3000000, .i32⟩ : BufTy).Contents (Elt F) :=
  select
    (cmpi .slt (shapeCast S3000000 (extractStridedSlice S3000000x1 ![0, 0] t slices_S3000000x3_S3000000x1_0_0) shapeCasts_S3000000x1_S3000000)
      (broadcastInDim S3000000 ![] bcast_S_S3000000 (constantI S_ 32 0#32)))
    (addi (shapeCast S3000000 (extractStridedSlice S3000000x1 ![0, 0] t slices_S3000000x3_S3000000x1_0_0) shapeCasts_S3000000x1_S3000000)
      (broadcastInDim S3000000 ![] bcast_S_S3000000 (constantI S_ 32 50000#32)))
    (shapeCast S3000000 (extractStridedSlice S3000000x1 ![0, 0] t slices_S3000000x3_S3000000x1_0_0) shapeCasts_S3000000x1_S3000000)

/-- The gradient rows the derivative rows take. -/
def gathered (d : FVec F S50000x56 .f32) (t : (⟨S3000000x3, .i32⟩ : BufTy).Contents (Elt F)) : FVec F S3000000x56 .f32 :=
  Host.gather gather_S50000x56_S3000000x1_S3000000x56_1_0_n_n_0_1_156 d
    (broadcastInDim S3000000x1 ![0] bcast_S3000000_S3000000x1_0 (atomIdx t))

/-- The force component a derivative row adds to: 3 j + coord. -/
def forceIdx (t : (⟨S3000000x3, .i32⟩ : BufTy).Contents (Elt F)) (j : (⟨S3000000, .i32⟩ : BufTy).Contents (Elt F)) :
    (⟨S3000000, .i32⟩ : BufTy).Contents (Elt F) :=
  addi (muli j (broadcastInDim S3000000 ![] bcast_S_S3000000 (constantI S_ 32 3#32)))
    (shapeCast S3000000 (extractStridedSlice S3000000x1 ![0, 2] t slices_S3000000x3_S3000000x1_0_2) shapeCasts_S3000000x1_S3000000)

/-- The forces: the rows' values summed by force component. -/
def forces (vals : FVec F S3000000 .f32) (t : (⟨S3000000x3, .i32⟩ : BufTy).Contents (Elt F)) (j : (⟨S3000000, .i32⟩ : BufTy).Contents (Elt F)) :
    FVec F S150000 .f32 :=
  Host.scatterAdd scatter_S150000_S3000000x1_S3000000_n_0_0_1 (broadcastInDim S150000 ![] bcast_S_S150000 (constant S_ .f32 0x00000000#32))
    (broadcastInDim S3000000x1 ![0] bcast_S3000000_S3000000x1_0 (forceIdx t j)) vals

/-- A row's value the direct way: the products summed over the 56 columns from 0. -/
def rowVals (xd g : FVec F S3000000x56 .f32) : FVec F S3000000 .f32 :=
  Host.reduceAdd (mulf xd g) (constant S_ .f32 0x00000000#32) reducesTo_S3000000x56_S3000000_d1 h_S_

end Cert.Net

end
-- ==== Proof.KernelHost.lean ====
/-
  What the kernel's program has computed on the host when its mul-reduce region is entered, over the named
  mathematics of `Net`: the per-structure energies (its first result, final already), the force component of every
  derivative row, and the region's two operands — the derivative rows and the gathered gradient rows, each padded with
  14656 rows of the padding value (the integer 0 converted) to 184 whole tiles.
-/
import proofs.«170760_j87857851007474_1_alg».proof.Proof.Gen.KernelIdeal.Frame
import proofs.«170760_j87857851007474_1_alg».proof.Proof.Net
import Idealize.ShloMosaic.Lib.StableHlo.Run

set_option maxRecDepth 8192

noncomputable section

open Idealize.ShloMosaic Idealize.ShloMosaic.TcCoe Idealize.SL.Sem Idealize.ShloMosaic.StableHlo

namespace Cert.KernelIdeal.Host

open Cert.KernelIdeal Cert.KernelIdeal.Gen Cert.KernelIdeal.Facts₀ Cert.KernelIdeal.Facts Cert.Net

variable {F : FTy → Type} [FloatOps F]
variable (m : (ℓ : Loc nD τ sig) → Buf (Elt F) ℓ)

/-- The padding value: the integer 0 converted to a float. -/
abbrev padVal : FVec F S_ .f32 := sitofp .f32 (constantI S_ 32 0#32)

/-- The gradient rows the derivative rows take, of the launch contents. -/
abbrev gatheredOf (c : Dev nD) : FVec F S3000000x56 .f32 :=
  gathered (grad (m ((c.tc : Thread nD τ).loc main_arg0)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) (m ((c.tc : Thread nD τ).loc main_arg4))

set_option maxHeartbeats 4000000 in
/-- The energies are computed before the region. -/
theorem V_energy (c : Dev nD) : V m c main_v17 = energy (m ((c.tc : Thread nD τ).loc main_arg0)) (m ((c.tc : Thread nD τ).loc main_arg2)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append, List.nil_append]
  after_results_simp <;> rfl

set_option maxHeartbeats 4000000 in
/-- So is every row's force component. -/
theorem V_forceIdx (c : Dev nD) : V m c main_v45 = forceIdx (m ((c.tc : Thread nD τ).loc main_arg4)) (m ((c.tc : Thread nD τ).loc main_arg5)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append, List.nil_append]
  after_results_simp <;> rfl

set_option maxHeartbeats 4000000 in
/-- The region's first operand: the derivative rows, padded. -/
theorem V_rows (c : Dev nD) : V m c main_v53 = pad S3014656x56 ![0, 0] ![14656, 0] ![0, 0] (m ((c.tc : Thread nD τ).loc main_arg1)) (padVal (F := F)) Facts₀.pads_S3000000x56_S3014656x56_0146560_000 Facts₀.h_S_ := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append, List.nil_append]
  after_results_simp <;> rfl

set_option maxHeartbeats 4000000 in
/-- The region's second operand: the gathered gradient rows, padded. -/
theorem V_grads (c : Dev nD) : V m c main_v54 = pad S3014656x56 ![0, 0] ![14656, 0] ![0, 0] (gatheredOf m c) (padVal (F := F)) Facts₀.pads_S3000000x56_S3014656x56_0146560_000 Facts₀.h_S_ := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append, List.nil_append]
  after_results_simp <;> rfl

end Cert.KernelIdeal.Host

end
-- ==== Proof.KernelSide.lean ====
/-
  The kernel program's run, read over the named mathematics of `Net`.

  After the region the program cuts the [3014656, 1] column of row inner products back to its first 3000000 rows,
  flattens it, and sums the values by force component. The column is `rowDot` of the two padded operands
  (`KernelRows`), so the cut values are the rows' values taken the direct way (`RowSums.rows_eq`: the padding rows
  are cut away unread), and the forces are the reference's. The energies were final before the region.
-/
import proofs.«170760_j87857851007474_1_alg».proof.Proof.KernelRows
import proofs.«170760_j87857851007474_1_alg».proof.Proof.KernelHost
import Idealize.ShloMosaic.Lib.StableHlo.Run

noncomputable section

open Idealize.ShloMosaic Idealize.ShloMosaic.TcCoe Idealize.SL.Sem Idealize.ShloMosaic.StableHlo
open Idealize.ShloMosaic.Pipeline (Dat)

namespace Cert.KernelIdeal.Hand

open Cert.KernelIdeal Cert.KernelIdeal.Gen Cert.KernelIdeal.Facts₀ Cert.KernelIdeal.Facts Cert.Net Cert.KernelIdeal.Host

variable (m : (ℓ : Loc nD τ sig) → Buf (Elt Ideal) ℓ) (ρ : Dev nD → PrngReg)

/-- The energies the kernel's program ends with. -/
abbrev energyOf (c : Dev nD) : Buf (Elt Ideal) ((c.tc : Thread nD τ).loc main_v17) :=
  energy (m ((c.tc : Thread nD τ).loc main_arg0)) (m ((c.tc : Thread nD τ).loc main_arg2)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))

/-- The forces the kernel's program ends with. -/
abbrev forcesOf (c : Dev nD) : Buf (Elt Ideal) ((c.tc : Thread nD τ).loc main_v60) :=
  forces (rowVals (m ((c.tc : Thread nD τ).loc main_arg1)) (gatheredOf m c)) (m ((c.tc : Thread nD τ).loc main_arg4)) (m ((c.tc : Thread nD τ).loc main_arg5))

/-- The cut, flattened column of row inner products is the rows' values taken the direct way. -/
theorem vals_eq (c : Dev nD) :
    shapeCast S3000000 (extractStridedSlice S3000000x1 ![0, 0] ((dats m 0 c).arrAt 2 cfg0.N) Facts₀.slices_S3014656x1_S3000000x1_0_0) Facts₀.shapeCasts_S3000000x1_S3000000
      = rowVals (m ((c.tc : Thread nD τ).loc main_arg1)) (gatheredOf m c) := by
  rw [Cert.KernelIdeal.Rows.final m c, V_rows, V_grads]
  exact Cert.RowSums.rows_eq (m ((c.tc : Thread nD τ).loc main_arg1)) (gatheredOf m c) padVal padVal _ _ _ _ _ _ (by decide)

/-- No line after the region writes the energies. -/
theorem tail_energy (c : Dev nD) : Pipeline.afterTail₀ cfgs (dats m) 0 (V0 m) [hostOps1] c main_v17 = energyOf m c := by
  unfold Pipeline.afterTail₀
  show StableHlo.after hostOps1 _ (Proc.devRef .tc main_v17) = _
  after_results
  rw [Pipeline.withArrays_of_ne _ c (V0 m c) _ main_v17 (by exact (by decide : ∀ w, Pipeline.arrRef spec0 w ≠ main_v17))]
  exact V_energy m c

/-- The lines after the region sum the cut values by force component. -/
theorem tail_forces (c : Dev nD) : Pipeline.afterTail₀ cfgs (dats m) 0 (V0 m) [hostOps1] c main_v60 = forcesOf m c := by
  unfold Pipeline.afterTail₀
  show StableHlo.after hostOps1 _ (Proc.devRef .tc main_v60) = _
  after_results
  rw [Pipeline.withArrays_of_ne _ c (V0 m c) _ main_v45 (by exact (by decide : ∀ w, Pipeline.arrRef spec0 w ≠ main_v45))]
  have hW : Pipeline.withArrays (cfgs 0).spec c (V0 m c) (fun w => (dats m 0 c).arrAt w (cfgs 0).N) (Proc.devRef .tc main_v55)
      = (dats m 0 c).arrAt 2 cfg0.N :=
    Pipeline.withArrays_arr spec0 launch0.win.arr_inj c (V0 m c) (fun w => (dats m 0 c).arrAt w cfg0.N) 2
  rw [hW]
  rw [show V0 m c (Proc.devRef .tc main_v45) = forceIdx (m ((c.tc : Thread nD τ).loc main_arg4)) (m ((c.tc : Thread nD τ).loc main_arg5)) from V_forceIdx m c]
  refine Eq.trans ?_ (congrArg (fun v => forces v (m ((c.tc : Thread nD τ).loc main_arg4)) (m ((c.tc : Thread nD τ).loc main_arg5))) (vals_eq m c))
  rfl

/-- The run, read. -/
theorem run : θ_run defs (onTc (τ := τ) (main (F := Ideal))) ⟨m, fun _ => 0, ρ⟩ fun r => ∀ c : Dev nD,
      r.2.mem ((c.tc : Thread nD τ).loc main_v17) = energyOf m c
      ∧ r.2.mem ((c.tc : Thread nD τ).loc main_v60) = forcesOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun r h c => ⟨
      ((h c).2 main_v17 (Pipeline.mem_restRefs_of main_v17 (by decide) (by decide))).trans (tail_energy m c),
      ((h c).2 main_v60 (Pipeline.mem_restRefs_of main_v60 (by decide) (by decide))).trans (tail_forces m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c)⟩)
    (run_main m ρ)

end Cert.KernelIdeal.Hand

end
-- ==== Proof.RefSide.lean ====
/-
  The reference program's run, read over the named mathematics of `Net`: it ends with the per-structure energies in
  its first result and, in its second, the forces summed from the rows' values taken the direct way (the products of a
  derivative row with its atom's gradient row, summed over the 56 columns).
-/
import proofs.«170760_j87857851007474_1_alg».proof.Proof.Gen.ReferenceIdeal.Run
import proofs.«170760_j87857851007474_1_alg».proof.Proof.Net

noncomputable section

open Idealize.ShloMosaic Idealize.ShloMosaic.TcCoe Idealize.SL.Sem

namespace Cert.ReferenceIdeal.Hand

open Cert.ReferenceIdeal Cert.ReferenceIdeal.Gen Cert.Net

variable {F : FTy → Type} [FloatOps F]
variable (m : (ℓ : Loc nD τ sig) → Buf (Elt F) ℓ) (ρ : Dev nD → PrngReg)

/-- The energies the reference ends with. -/
abbrev energyOf (c : Dev nD) : Buf (Elt F) ((c.tc : Thread nD τ).loc main_v17) :=
  energy (m ((c.tc : Thread nD τ).loc main_arg0)) (m ((c.tc : Thread nD τ).loc main_arg2)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))

/-- The forces the reference ends with. -/
abbrev forcesOf (c : Dev nD) : Buf (Elt F) ((c.tc : Thread nD τ).loc main_v57) :=
  forces (rowVals (m ((c.tc : Thread nD τ).loc main_arg1)) (gathered (grad (m ((c.tc : Thread nD τ).loc main_arg0)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) (m ((c.tc : Thread nD τ).loc main_arg4)))) (m ((c.tc : Thread nD τ).loc main_arg4)) (m ((c.tc : Thread nD τ).loc main_arg5))

/-- The run, read. -/
theorem run : θ_run defs (onTc (τ := τ) (main (F := F))) ⟨m, fun _ => 0, ρ⟩ fun r => ∀ c : Dev nD,
      r.2.mem ((c.tc : Thread nD τ).loc main_v17) = energyOf m c
      ∧ r.2.mem ((c.tc : Thread nD τ).loc main_v57) = forcesOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c).1.trans rfl, (h c).2.1.trans rfl, (h c).2.2⟩)
    (Cert.ReferenceIdeal.Value.run m ρ)

end Cert.ReferenceIdeal.Hand

end
-- ==== Proof.lean ====
/-
  The kernel's program against its reference, over the extended reals.

  Both programs compute, on the host and with the same operations, the per-structure energies of a small silu
  perceptron, the gradient of the total energy in the descriptors, the gradient row of every derivative row's atom and
  the row's force component. They differ only in how a derivative row's value — its inner product with that gradient
  row — is taken: the reference multiplies the two [3000000, 56] arrays and sums each row; the kernel's program pads
  both to 184 tiles of 16384 rows, lets a pipelined region multiply and row-sum one tile per grid point, and cuts the
  padding rows away again. A sum of 56 extended reals does not depend on how it is tiled, the padding rows are never
  read back, and 0 + s = s, so the values agree (`RowSums`, `KernelRows`, `KernelSide`); everything else is the same
  function of the same arguments (`Net`, `KernelHost`, `RefSide`). No step needs the inputs to be finite. The ideal
  pass rewrote nothing, so the idealization claim has no conjunct. The frames are the generated ones; the reference's is
  its generated run with the results dropped.
-/
import proofs.«170760_j87857851007474_1_alg».proof.Defs
import proofs.«170760_j87857851007474_1_alg».proof.Proof.Gen.Kernel
import proofs.«170760_j87857851007474_1_alg».proof.Proof.Gen.Kernel.Skeleton
import proofs.«170760_j87857851007474_1_alg».proof.Proof.Gen.Kernel.Launch
import proofs.«170760_j87857851007474_1_alg».proof.Proof.Gen.Kernel.Points
import proofs.«170760_j87857851007474_1_alg».proof.Proof.Gen.Kernel.Frame
import proofs.«170760_j87857851007474_1_alg».proof.Proof.Gen.KernelIdeal
import proofs.«170760_j87857851007474_1_alg».proof.Proof.Gen.KernelIdeal.Skeleton
import proofs.«170760_j87857851007474_1_alg».proof.Proof.Gen.KernelIdeal.Launch
import proofs.«170760_j87857851007474_1_alg».proof.Proof.Gen.KernelIdeal.Points
import proofs.«170760_j87857851007474_1_alg».proof.Proof.Gen.KernelIdeal.Frame
import proofs.«170760_j87857851007474_1_alg».proof.Proof.Gen.ReferenceIdeal
import proofs.«170760_j87857851007474_1_alg».proof.Proof.Gen.Pre_finite_inputs
import proofs.«170760_j87857851007474_1_alg».proof.Proof.Gen.ReferenceIdeal.Run
import proofs.«170760_j87857851007474_1_alg».proof.Proof.KernelSide
import proofs.«170760_j87857851007474_1_alg».proof.Proof.RefSide
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run keeps its arguments. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the energies and the forces of `Net` at arguments that agree. -/
theorem algebraic : Cert.algebraic_KernelIdeal_ReferenceIdeal := by
  intro m ρ m' ρ' _ hagree
  refine ⟨fun c => Cert.KernelIdeal.Hand.energyOf m c, fun c => Cert.KernelIdeal.Hand.forcesOf m c,
    Cert.KernelIdeal.Hand.run m ρ, ?_⟩
  refine (θ_run Cert.ReferenceIdeal.defs _ _).mono (fun _ h c => ⟨(h c).1.trans ?_, (h c).2.1.trans ?_, (h c).2.2⟩)
    (Cert.ReferenceIdeal.Hand.run (F := Ideal) m' ρ')
  · obtain ⟨e0, e1, e2, e3, e4, e5, e6, e7, e8, e9, e10, e11⟩ := hagree c
    unfold Cert.ReferenceIdeal.Hand.energyOf Cert.KernelIdeal.Hand.energyOf
    rw [e0, e2, e6, e7, e8, e9, e10, e11]
  · obtain ⟨e0, e1, e2, e3, e4, e5, e6, e7, e8, e9, e10, e11⟩ := hagree c
    unfold Cert.ReferenceIdeal.Hand.forcesOf Cert.KernelIdeal.Hand.forcesOf Cert.KernelIdeal.Host.gatheredOf
    rw [e0, e1, e4, e5, e6, e7, e8, e9, e10]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
